-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1000000 : Shape := ⟨1, ![1000000]⟩
abbrev S100000x1 : Shape := ⟨2, ![100000, 1]⟩
abbrev S1x64 : Shape := ⟨2, ![1, 64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S1000000 : S_.BroadcastsInDim S1000000 (![] : Fin 0 → Fin S1000000.rank)
  reducesTo_S1000000_S_d0 : S1000000.ReducesTo [0] S_
  bcast_S_S100000x1 : S_.BroadcastsInDim S100000x1 (![] : Fin 0 → Fin S100000x1.rank)
  reducesTo_S100000x1_S_d0_1 : S100000x1.ReducesTo [0, 1] S_
  bcast_S_S1x64 : S_.BroadcastsInDim S1x64 (![] : Fin 0 → Fin S1x64.rank)
  reducesTo_S1x64_S_d0_1 : S1x64.ReducesTo [0, 1] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  main_v38

def fn_part1 {F : FTy → Type} [FloatOps F] (main_arg4 : FVec F S100000x1 .f32) (main_arg5 : FVec F S1x64 .f32) (main_arg6 : FVec F S1x64 .f32) (main_arg7 : FVec F S64x64 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S100000x1 .f32 := Host.absf main_arg4
  let main_cst_6 : FVec F S_ .f32 := constant S_ .f32 0x7F800000#32
  let main_v20 : FVec F S100000x1 .f32 := broadcastInDim S100000x1 ![] bcast_S_S100000x1 main_cst_6
  let main_v21 : IVec S100000x1 1 := cmpf .olt main_v19 main_v20
  let main_c_7 : IVec S_ 1 := constantI S_ 1 1#1
  let main_v22 : IVec S_ 1 := (fun x v => Host.reduce IntOp.andi x v reducesTo_S100000x1_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S1000000x64 .f32) (main_arg2 : FVec F S1000000 .f32) (main_arg3 : FVec F S100000x1 .f32) (main_arg4 : FVec F S100000x1 .f32) (main_arg5 : FVec F S1x64 .f32) (main_arg6 : FVec F S1x64 .f32) (main_arg7 : FVec F S64x64 .f32) (main_arg8 : IVec S1000000 32) (main_arg9 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg4 main_arg5 main_arg6 main_arg7 main_v13 main_v16
-- ==== Kernel.lean ====
abbrev S100000x64 : Shape := ⟨2, ![100000, 64]⟩
abbrev S1000000x64 : Shape := ⟨2, ![1000000, 64]⟩
abbrev S1000000 : Shape := ⟨1, ![1000000]⟩
abbrev S100000x1 : Shape := ⟨2, ![100000, 1]⟩
abbrev S1x64 : Shape := ⟨2, ![1, 64]⟩
abbrev S64x64 : Shape := ⟨2, ![64, 64]⟩
abbrev S_ : Shape := ⟨0, ![]⟩
abbrev S1000000x1 : Shape := ⟨2, ![1000000, 1]⟩
abbrev S4000x64 : Shape := ⟨2, ![4000, 64]⟩
abbrev S4000x1 : Shape := ⟨2, ![4000, 1]⟩
abbrev S64x1 : Shape := ⟨2, ![64, 1]⟩

abbrev nBuf : Space → Nat
  | .hbm => 36
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .f32⟩
  | .hbm, ⟨3, _⟩ => ⟨S100000x1, .f32⟩
  | .hbm, ⟨4, _⟩ => ⟨S100000x1, .f32⟩
  | .hbm, ⟨5, _⟩ => ⟨S1x64, .f32⟩
  | .hbm, ⟨6, _⟩ => ⟨S1x64, .f32⟩
  | .hbm, ⟨7, _⟩ => ⟨S64x64, .f32⟩
  | .hbm, ⟨8, _⟩ => ⟨S1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x1, .f32⟩
  | .hbm, ⟨28, _⟩ => ⟨S1000000x1, .f32⟩
  | .hbm, ⟨29, _⟩ => ⟨S1000000x64, .f32⟩
  | .hbm, ⟨30, _⟩ => ⟨S_, .f32⟩
  | .hbm, ⟨31, _⟩ => ⟨S100000x64, .f32⟩
  | .hbm, ⟨32, _⟩ => ⟨S1000000x1, .i32⟩
  | .hbm, ⟨33, _⟩ => ⟨S100000x64, .f32⟩
  | .hbm, ⟨34, _⟩ => ⟨S100000x64, .f32⟩
  | .hbm, ⟨35, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S4000x1, .f32⟩
  | .local _ .vmem, ⟨7, _⟩ => ⟨S4000x1, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S4000x64, .f32⟩
  | .local _ .vmem, ⟨12, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S64x64_S64x64_0_0 : ∀ a, (![0, 0] : Fin 2 → Nat) a + S64x64.size a ≤ S64x64.size a
  h_S64x64 : 0 < S64x64.numel
  transposes_S1x64_p1_0_S64x1 : S1x64.Transposes [1, 0] S64x1
  transposes_S64x64_p1_0_S64x64 : S64x64.Transposes [1, 0] S64x64
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  gather_S100000x1_S1000000x1_S1000000x1_1_0_n_n_0_1_11_wf : GatherDims.WF S100000x1 S1000000x1 S1000000x1 [1] [0] [] [0] [] 1 ![1, 1]
  dot_S4000x64_S64x1_S4000x1_1_0_0_1_n_n_wf : DotDims.WF S4000x64 S64x1 S4000x1 [1] [0] [0] [1] [] []
  dot_S4000x64_S64x64_S4000x64_1_0_0_1_n_n_wf : DotDims.WF S4000x64 S64x64 S4000x64 [1] [0] [0] [1] [] []
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .f32 = 32 ∨ (Rect.block (s := S1000000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S1000000x1.size a
  hwx0_2 : ∀ i : grid0.Coords, EltTy.bits .f32 = 32 ∨ (Rect.block (s := S1000000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S1000000x1.size a
  hwx0_3 : ∀ i : grid0.Coords, EltTy.bits .f32 = 32 ∨ (Rect.block (s := S1000000x1) S4000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S1000000x64.size a
  hwx0_7 : ∀ i : grid0.Coords, EltTy.bits .f32 = 32 ∨ (Rect.block (s := S1000000x64) S4000x64.size (cc0_transform_7 i) (hinb0_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg1) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S1000000 : Shape := ⟨1, ![1000000]⟩
abbrev S100000x1 : Shape := ⟨2, ![100000, 1]⟩
abbrev S1x64 : Shape := ⟨2, ![1, 64]⟩
abbrev S64x64 : Shape := ⟨2, ![64, 64]⟩
abbrev S64x1 : Shape := ⟨2, ![64, 1]⟩
abbrev S1000000x1 : Shape := ⟨2, ![1000000, 1]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .f32⟩
  | .hbm, ⟨3, _⟩ => ⟨S100000x1, .f32⟩
  | .hbm, ⟨4, _⟩ => ⟨S100000x1, .f32⟩
  | .hbm, ⟨5, _⟩ => ⟨S1x64, .f32⟩
  | .hbm, ⟨6, _⟩ => ⟨S1x64, .f32⟩
  | .hbm, ⟨7, _⟩ => ⟨S64x64, .f32⟩
  | .hbm, ⟨8, _⟩ => ⟨S1000000, .i32⟩
  | .hbm, ⟨9, _⟩ => ⟨S1000000, .i32⟩
  | .hbm, ⟨10, _⟩ => ⟨S64x1, .f32⟩
  | .hbm, ⟨11, _⟩ => ⟨S1000000x1, .f32⟩
  | .hbm, ⟨12, _⟩ => ⟨S1000000x1, .f32⟩
  | .hbm, ⟨13, _⟩ => ⟨S1000000x1, .f32⟩
  | .hbm, ⟨14, _⟩ => ⟨S_, .f32⟩
  | .hbm, ⟨15, _⟩ => ⟨S1000000x1, .f32⟩
  | .hbm, ⟨16, _⟩ => ⟨S1000000x1, .f32⟩
  | .hbm, ⟨17, _⟩ => ⟨S_, .f32⟩
  | .hbm, ⟨18, _⟩ => ⟨S1000000x1, .f32⟩
  | .hbm, ⟨19, _⟩ => ⟨S1000000x1, .f32⟩
  | .hbm, ⟨20, _⟩ => ⟨S64x1, .f32⟩
  | .hbm, ⟨21, _⟩ => ⟨S1000000x1, .f32⟩
  | .hbm, ⟨22, _⟩ => ⟨S1000000x1, .f32⟩
  | .hbm, ⟨23, _⟩ => ⟨S1000000x1, .f32⟩
  | .hbm, ⟨24, _⟩ => ⟨S_, .f32⟩
  | .hbm, ⟨25, _⟩ => ⟨S1000000x1, .f32⟩
  | .hbm, ⟨26, _⟩ => ⟨S1000000x1, .f32⟩
  | .hbm, ⟨27, _⟩ => ⟨S_, .f32⟩
  | .hbm, ⟨28, _⟩ => ⟨S1000000x1, .f32⟩
  | .hbm, ⟨29, _⟩ => ⟨S1000000x1, .f32⟩
  | .hbm, ⟨30, _⟩ => ⟨S64x64, .f32⟩
  | .hbm, ⟨31, _⟩ => ⟨S1000000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x1, .f32⟩
  | .hbm, ⟨50, _⟩ => ⟨S1000000x1, .f32⟩
  | .hbm, ⟨51, _⟩ => ⟨S1000000x64, .f32⟩
  | .hbm, ⟨52, _⟩ => ⟨S1000000x64, .f32⟩
  | .hbm, ⟨53, _⟩ => ⟨S1000000x1, .f32⟩
  | .hbm, ⟨54, _⟩ => ⟨S1000000x64, .f32⟩
  | .hbm, ⟨55, _⟩ => ⟨S1000000x64, .f32⟩
  | .hbm, ⟨56, _⟩ => ⟨S1000000x64, .f32⟩
  | .hbm, ⟨57, _⟩ => ⟨S1000000x64, .f32⟩
  | .hbm, ⟨58, _⟩ => ⟨S1000000x64, .f32⟩
  | .hbm, ⟨59, _⟩ => ⟨S_, .f32⟩
  | .hbm, ⟨60, _⟩ => ⟨S100000x64, .f32⟩
  | .hbm, ⟨61, _⟩ => ⟨S1000000x1, .i32⟩
  | .hbm, ⟨62, _⟩ => ⟨S100000x64, .f32⟩
  | .hbm, ⟨63, _⟩ => ⟨S100000x64, .f32⟩
  | .hbm, ⟨64, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  transposes_S1x64_S64x1_1_0 : S1x64.Transposes [1, 0] S64x1
  bcast_S_S1000000x1 : S_.BroadcastsInDim S1000000x1 (![] : Fin 0 → Fin S1000000x1.rank)
  transposes_S64x64_S64x64_1_0 : S64x64.Transposes [1, 0] S64x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S1000000x64_S64x1_S1000000x1_1_0_0_1_n_n_wf : DotDims.WF S1000000x64 S64x1 S1000000x1 [1] [0] [0] [1] [] []
  dot_S1000000x64_S64x64_S1000000x64_1_0_0_1_n_n_wf : DotDims.WF S1000000x64 S64x64 S1000000x64 [1] [0] [0] [1] [] []
  gather_S100000x64_S1000000x1_S1000000x64_1_0_n_n_0_1_164_wf : GatherDims.WF S100000x64 S1000000x1 S1000000x64 [1] [0] [] [0] [] 1 ![1, 64]
  gather_S100000x1_S1000000x1_S1000000x1_1_0_n_n_0_1_11_wf : GatherDims.WF S100000x1 S1000000x1 S1000000x1 [1] [0] [] [0] [] 1 ![1, 1]
  scatter_S100000x64_S1000000x1_S1000000x64_1_0_0_1_wf : ScatterDims.WF S100000x64 S1000000x1 S1000000x64 [1] [0] [0] 1

variable [Facts₀]

def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.LibRowColumn.lean ====
/-
  Row sums and the column forms a row sum with kept dimensions passes through, read at an entry.

  A sum along the rows of an [a, b] matrix is a vector of length a; "keeping the dimension" casts it to the column
  [a, 1]; a column is re-laid as the row [1, a] by another cast, and a column is broadcast along the second axis to
  [a, b]. Each lemma reads one of these operations at an index written by its coordinates: the cast and the broadcast
  read the operand at one index, and the row sum at row p is the sum over the columns k of entry (p, k).
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowColumn

open Idealize.ShloMosaic Idealize.ShloMosaic.ValueIdx

variable {α : Type}

/-- A vector [a] cast to the column [a, 1] reads, at (i, u), the operand at i: both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to the row [1, a] reads, at (u, i), the operand at (i, 0): both have row-major position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] matrix along its rows, over the extended reals, read at row p: the sum over the columns k of
    entry (p, k). The accumulator is the sum's neutral word, so nothing is added to it. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.RowColumn

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Payload.lean ====
/-
  What the kernel body stores for one tile of 4000 edges, read at an entry, over the extended reals.

  The body takes a tile `rf` of review features [4000, 64], the tile `h` of gathered source rows
  [4000, 64], the columns `cj` and `a` [4000, 1], the weight rows `pw`, `rsw` [1, 64] and the weight
  matrix `rw` [64, 64]. A change of float format is the identity here, a product into the zero
  accumulator is a plain sum over the 64 features, a transposed operand is read with its coordinates
  exchanged, a column broadcast along the features is read at its row, and the logistic operation is
  `1 / (1 + e^(−x))`. So entry `(p, q)` of the stored tile is

      (h p q · σ(∑ k, rf p k · pw k) + (∑ k, rf p k · rw q k) · (σ(∑ k, rf p k · rsw k) · a p)) · cj p.
-/
import proofs.«142595_j77300821393408_1_alg».proof.Proof.Gen.KernelIdeal.Skeleton
import proofs.«142595_j77300821393408_1_alg».proof.Proof.LibRowColumn
import proofs.«142595_j77300821393408_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- The logistic operation on a vector, read at an index. -/
theorem logistic_apply {s : Shape} {φ : FTy} (v : FVec Ideal s φ) (i : s.Idx) :
    logistic v i = Ideal.logistic (v i) := rfl

/-- The tile against one transposed weight row: row `p` of the tile paired with the row's 64 weights. -/
theorem rowProduct_apply (x : FVec Ideal S4000x64 .bf16) (w : FVec Ideal S1x64 .bf16)
    (ht : S1x64.Transposes [1, 0] S64x1) (p : Fin 4000) :
    matmul dot_S4000x64_S64x1_S4000x1_1_0_0_1_n_n none x (transpose S64x1 [1, 0] w ht)
        (constant (F := Ideal) S4000x1 .f32 0x00000000#32) (ix2 p (0 : Fin 1))
      = ∑ k : Fin 64, x (ix2 p k) * w (ix2 (0 : Fin 1) k) := by
  refine (Cert.PlainMatmul.apply (M := 4000) (K := 64) (N := 1) none x _ p 0).trans ?_
  exact Finset.sum_congr rfl fun k _ => congrArg (x (ix2 p k) * ·) (transpose_ix2_apply w ht k 0)

/-- The tile against the transposed weight matrix: row `p` of the tile paired with ROW `q` of the matrix. -/
theorem matProduct_apply (x : FVec Ideal S4000x64 .bf16) (w : FVec Ideal S64x64 .bf16)
    (ht : S64x64.Transposes [1, 0] S64x64) (p : Fin 4000) (q : Fin 64) :
    matmul dot_S4000x64_S64x64_S4000x64_1_0_0_1_n_n none x (transpose S64x64 [1, 0] w ht)
        (constant (F := Ideal) S4000x64 .f32 0x00000000#32) (ix2 p q)
      = ∑ k : Fin 64, x (ix2 p k) * w (ix2 q k) := by
  refine (Cert.PlainMatmul.apply (M := 4000) (K := 64) (N := 64) none x _ p q).trans ?_
  exact Finset.sum_congr rfl fun k _ => congrArg (x (ix2 p k) * ·) (transpose_ix2_apply w ht k q)

/-- Entry `(p, q)` of what the body stores. -/
theorem payload_apply (rf : Vec Ideal S4000x64 .f32) (pw rsw : Vec Ideal S1x64 .f32) (rw : Vec Ideal S64x64 .f32)
    (h : Vec Ideal S4000x64 .f32) (cj a : Vec Ideal S4000x1 .f32) (p : Fin 4000) (q : Fin 64) :
    k0_pay1 (F := Ideal) rf pw rsw rw h cj a (ix2 p q)
      = (h (ix2 p q) * Ideal.logistic (∑ k : Fin 64, rf (ix2 p k) * pw (ix2 (0 : Fin 1) k))
          + (∑ k : Fin 64, rf (ix2 p k) * rw (ix2 q k))
            * (Ideal.logistic (∑ k : Fin 64, rf (ix2 p k) * rsw (ix2 (0 : Fin 1) k)) * a (ix2 p (0 : Fin 1))))
        * cj (ix2 p (0 : Fin 1)) := by
  unfold k0_pay1
  simp only [mulf_apply, addf_apply, Cert.RowColumn.broadcastTo_a1_ab_apply, shapeCast_self, logistic_apply]
  rw [rowProduct_apply, rowProduct_apply, matProduct_apply]
  rfl

end Cert.KernelIdeal.Tile

end
-- ==== Proof.EdgeMessage.lean ====
/-
  The edge message of a graph convolution, as one function of its operands, entry by entry, over the
  extended reals.

  For an edge `e` with review features `rf e ·` (64 numbers), a gathered source row `h e ·`, a
  gathered source normaliser `cj e` and an attention weight `a e`:

      message e d = (h e d · σ(⟨rf e, pw⟩) + ⟨rf e, rw d⟩ · (σ(⟨rf e, rsw⟩) · a e)) · cj e

  where `⟨x, y⟩ = ∑ k, x k · y k` over the 64 features, `pw` and `rsw` are single rows, `rw d` is
  row `d` of a 64 × 64 matrix (so `⟨rf e, rw d⟩` is entry `(e, d)` of `rf · rwᵀ`), and
  `σ x = 1 / (1 + e^(−x))` with the conventions of the extended reals at the infinities.
  The association of the products and of the sum is kept exactly as written: no law of the
  extended reals beyond the definitions is used anywhere, so no finiteness is needed.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.EdgeMessage

/-- One row of 64 numbers per edge. -/
abbrev EdgeRows : Shape := ⟨2, ![1000000, 64]⟩
/-- One number per edge, kept as a column. -/
abbrev EdgeCol : Shape := ⟨2, ![1000000, 1]⟩
/-- A single row of 64 weights. -/
abbrev WeightRow : Shape := ⟨2, ![1, 64]⟩
/-- A 64 × 64 weight matrix. -/
abbrev WeightSq : Shape := ⟨2, ![64, 64]⟩

/-- The inner product of edge `e`'s features with the single weight row `w`. -/
def score (rf : EdgeRows.Idx → EReal) (w : WeightRow.Idx → EReal) (e : Fin 1000000) : EReal :=
  ∑ k : Fin 64, rf (ix2 e k) * w (ix2 (0 : Fin 1) k)

/-- Entry `(e, d)` of `rf · rwᵀ`: the inner product of edge `e`'s features with row `d` of `rw`. -/
def proj (rf : EdgeRows.Idx → EReal) (rw : WeightSq.Idx → EReal) (e : Fin 1000000) (d : Fin 64) : EReal :=
  ∑ k : Fin 64, rf (ix2 e k) * rw (ix2 d k)

/-- The message of edge `i 0` at feature `i 1`. -/
def message (rf h : EdgeRows.Idx → EReal) (cj a : EdgeCol.Idx → EReal) (pw rsw : WeightRow.Idx → EReal)
    (rw : WeightSq.Idx → EReal) : EdgeRows.Idx → EReal := fun i =>
  (h i * Ideal.logistic (score rf pw (i 0))
      + proj rf rw (i 0) (i 1) * (Ideal.logistic (score rf rsw (i 0)) * a (ix2 (i 0) (0 : Fin 1))))
    * cj (ix2 (i 0) (0 : Fin 1))

/-- The float word `0x3F800000` is the number one. -/
theorem one_f32 : Ideal.ofBits .f32 0x3F800000#32 = 1 := IdealRules.sign_bit.ideal_onePat .f32

/-- The logistic function is its textbook expansion `1 / (1 + e^(−x))`, the quotient being the extended reals'. -/
theorem logistic_expand (x : EReal) : Ideal.div 1 (1 + Ideal.exp (-x)) = Ideal.logistic x := rfl

end Cert.EdgeMessage

end
-- ==== Proof.KernelMessage.lean ====
/-
  The kernel's run, read: the region writes the message array, tile by tile, and the host lines after
  it aggregate that array.

  The grid has 250 points; at point `t` the four streamed windows (review features, gathered source
  rows, gathered normalisers, attention column) hold rows `4000 t … 4000 t + 3999` of their arrays
  and the three weight windows hold their whole arrays. So entry `(p, q)` of the tile written back at
  point `t` is the edge message of edge `4000 t + p` at feature `q`: the tile is block `t` of ONE
  array, `message` of the seven arrays as the region finds them. The 250 tiles are disjoint and
  exhaust the million rows (edge `e` lies in tile `e / 4000`), so after the region the output array
  IS that message array. Two of the seven arrays were written by host lines before the region (the
  two gathers and a relabelling of the attention vector as a column); the lines after the region
  scatter-add the message array into the destination rows and scale by `ci`.
-/
import proofs.«142595_j77300821393408_1_alg».proof.Proof.Gen.KernelIdeal.Frame
import proofs.«142595_j77300821393408_1_alg».proof.Proof.Payload
import proofs.«142595_j77300821393408_1_alg».proof.Proof.EdgeMessage
import Idealize.ShloMosaic.Lib.Pipeline.Value
import Idealize.ShloMosaic.Lib.StableHlo.Run
import Idealize.ShloMosaic.Lib.Tactic

noncomputable section

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeMessage

variable (m : (ℓ : Loc nD τ sig) → Buf (Elt Ideal) ℓ) (ρ : Dev nD → PrngReg)

theorem hz : (![0, 0] : Fin 2 → Nat) = fun _ => 0 := funext fun a => by fin_cases a <;> rfl

/-- Which block each window holds at point `t`: the four streamed windows and the output block `t` of
    their rows, the three weight windows their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The seven arrays as the region finds them, and their blocks at a point -/

abbrev rfArr (c : Dev nD) : Vec Ideal S1000000x64 .f32 := V m c main_arg1
abbrev hArr (c : Dev nD) : Vec Ideal S1000000x64 .f32 := V m c main_v6
abbrev cjArr (c : Dev nD) : Vec Ideal S1000000x1 .f32 := V m c main_v13
abbrev aArr (c : Dev nD) : Vec Ideal S1000000x1 .f32 := V m c main_v14
abbrev pwArr (c : Dev nD) : Vec Ideal S1x64 .f32 := V m c main_arg5
abbrev rswArr (c : Dev nD) : Vec Ideal S1x64 .f32 := V m c main_arg6
abbrev rwArr (c : Dev nD) : Vec Ideal S64x64 .f32 := V m c main_arg7

abbrev rfBlk (c : Dev nD) (t : Fin cfg0.N) : Vec Ideal S4000x64 .f32 := iblk m c 0 t
abbrev hBlk (c : Dev nD) (t : Fin cfg0.N) : Vec Ideal S4000x64 .f32 := iblk m c 1 t
abbrev cjBlk (c : Dev nD) (t : Fin cfg0.N) : Vec Ideal S4000x1 .f32 := iblk m c 2 t
abbrev aBlk (c : Dev nD) (t : Fin cfg0.N) : Vec Ideal S4000x1 .f32 := iblk m c 3 t
abbrev pwBlk (c : Dev nD) (t : Fin cfg0.N) : Vec Ideal S1x64 .f32 := iblk m c 4 t
abbrev rswBlk (c : Dev nD) (t : Fin cfg0.N) : Vec Ideal S1x64 .f32 := iblk m c 5 t
abbrev rwBlk (c : Dev nD) (t : Fin cfg0.N) : Vec Ideal S64x64 .f32 := iblk m c 6 t

/-- Row `p` of the feature tile at point `t` is row `4000 t + p` of the feature array. -/
theorem rfBlk_apply (c : Dev nD) (t : Fin cfg0.N) (p : Fin 4000) (k : Fin 64) (e : Fin 1000000)
    (he : e.val = 4000 * t.val + p.val) : rfBlk m c t (ix2 p k) = rfArr m c (ix2 e k) := by
  obtain ⟨e0, e1, -⟩ := idx_facts t
  show iblk m c 0 t (ix2 p k) = _
  unfold iblk
  rw [View.read_apply]
  show V m c main_arg1 _ = V m c main_arg1 _
  congr 1
  funext a
  apply Fin.ext
  match a with
  | ⟨0, _⟩ => show win0_0.index t (0 : Fin 2) * 4000 + 1 * p.val = e.val; rw [e0, he]; omega
  | ⟨1, _⟩ => show win0_0.index t (1 : Fin 2) * 64 + 1 * k.val = k.val; rw [e1]; omega

/-- Row `p` of the source-row tile at point `t` is row `4000 t + p` of the gathered source rows. -/
theorem hBlk_apply (c : Dev nD) (t : Fin cfg0.N) (p : Fin 4000) (k : Fin 64) (e : Fin 1000000)
    (he : e.val = 4000 * t.val + p.val) : hBlk m c t (ix2 p k) = hArr m c (ix2 e k) := by
  obtain ⟨-, -, e0, e1, -⟩ := idx_facts t
  show iblk m c 1 t (ix2 p k) = _
  unfold iblk
  rw [View.read_apply]
  show V m c main_v6 _ = V m c main_v6 _
  congr 1
  funext a
  apply Fin.ext
  match a with
  | ⟨0, _⟩ => show win0_1.index t (0 : Fin 2) * 4000 + 1 * p.val = e.val; rw [e0, he]; omega
  | ⟨1, _⟩ => show win0_1.index t (1 : Fin 2) * 64 + 1 * k.val = k.val; rw [e1]; omega

/-- Entry `p` of the normaliser tile at point `t` is entry `4000 t + p` of the gathered normalisers. -/
theorem cjBlk_apply (c : Dev nD) (t : Fin cfg0.N) (p : Fin 4000) (e : Fin 1000000)
    (he : e.val = 4000 * t.val + p.val) : cjBlk m c t (ix2 p (0 : Fin 1)) = cjArr m c (ix2 e (0 : Fin 1)) := by
  obtain ⟨-, -, -, -, e0, e1, -⟩ := idx_facts t
  show iblk m c 2 t (ix2 p (0 : Fin 1)) = _
  unfold iblk
  rw [View.read_apply]
  show V m c main_v13 _ = V m c main_v13 _
  congr 1
  funext a
  apply Fin.ext
  match a with
  | ⟨0, _⟩ => show win0_2.index t (0 : Fin 2) * 4000 + 1 * p.val = e.val; rw [e0, he]; omega
  | ⟨1, _⟩ => show win0_2.index t (1 : Fin 2) * 1 + 1 * 0 = 0; rw [e1]

/-- Entry `p` of the attention tile at point `t` is entry `4000 t + p` of the attention column. -/
theorem aBlk_apply (c : Dev nD) (t : Fin cfg0.N) (p : Fin 4000) (e : Fin 1000000)
    (he : e.val = 4000 * t.val + p.val) : aBlk m c t (ix2 p (0 : Fin 1)) = aArr m c (ix2 e (0 : Fin 1)) := by
  obtain ⟨-, -, -, -, -, -, e0, e1, -⟩ := idx_facts t
  show iblk m c 3 t (ix2 p (0 : Fin 1)) = _
  unfold iblk
  rw [View.read_apply]
  show V m c main_v14 _ = V m c main_v14 _
  congr 1
  funext a
  apply Fin.ext
  match a with
  | ⟨0, _⟩ => show win0_3.index t (0 : Fin 2) * 4000 + 1 * p.val = e.val; rw [e0, he]; omega
  | ⟨1, _⟩ => show win0_3.index t (1 : Fin 2) * 1 + 1 * 0 = 0; rw [e1]

/-- The first weight window holds the whole row `prob_w` at every point. -/
theorem pwBlk_apply (c : Dev nD) (t : Fin cfg0.N) (k : Fin 64) :
    pwBlk m c t (ix2 (0 : Fin 1) k) = pwArr m c (ix2 (0 : Fin 1) k) := by
  obtain ⟨-, -, -, -, -, -, -, -, e0, e1, -⟩ := idx_facts t
  show iblk m c 4 t (ix2 (0 : Fin 1) k) = _
  unfold iblk
  rw [View.read_apply]
  show V m c main_arg5 _ = V m c main_arg5 _
  congr 1
  funext a
  apply Fin.ext
  match a with
  | ⟨0, _⟩ => show win0_4.index t (0 : Fin 2) * 1 + 1 * 0 = 0; rw [e0]
  | ⟨1, _⟩ => show win0_4.index t (1 : Fin 2) * 64 + 1 * k.val = k.val; rw [e1]; omega

/-- The second weight window holds the whole row `review_score_w` at every point. -/
theorem rswBlk_apply (c : Dev nD) (t : Fin cfg0.N) (k : Fin 64) :
    rswBlk m c t (ix2 (0 : Fin 1) k) = rswArr m c (ix2 (0 : Fin 1) k) := by
  obtain ⟨-, -, -, -, -, -, -, -, -, -, e0, e1, -⟩ := idx_facts t
  show iblk m c 5 t (ix2 (0 : Fin 1) k) = _
  unfold iblk
  rw [View.read_apply]
  show V m c main_arg6 _ = V m c main_arg6 _
  congr 1
  funext a
  apply Fin.ext
  match a with
  | ⟨0, _⟩ => show win0_5.index t (0 : Fin 2) * 1 + 1 * 0 = 0; rw [e0]
  | ⟨1, _⟩ => show win0_5.index t (1 : Fin 2) * 64 + 1 * k.val = k.val; rw [e1]; omega

/-- The third weight window holds the whole matrix `review_w` at every point. -/
theorem rwBlk_apply (c : Dev nD) (t : Fin cfg0.N) (q k : Fin 64) :
    rwBlk m c t (ix2 q k) = rwArr m c (ix2 q k) := by
  obtain ⟨-, -, -, -, -, -, -, -, -, -, -, -, e0, e1, -⟩ := idx_facts t
  show iblk m c 6 t (ix2 q k) = _
  unfold iblk
  rw [View.read_apply]
  show V m c main_arg7 _ = V m c main_arg7 _
  congr 1
  funext a
  apply Fin.ext
  match a with
  | ⟨0, _⟩ => show win0_6.index t (0 : Fin 2) * 64 + 1 * q.val = q.val; rw [e0]; omega
  | ⟨1, _⟩ => show win0_6.index t (1 : Fin 2) * 64 + 1 * k.val = k.val; rw [e1]; omega

/-! ## The message array, and what a point writes back -/

/-- The message array on core `c`: the edge message of the seven arrays as the region finds them. -/
def messageArr (c : Dev nD) : Vec Ideal S1000000x64 .f32 :=
  message (rfArr m c) (hArr m c) (cjArr m c) (aArr m c) (pwArr m c) (rswArr m c) (rwArr m c)

/-- The message at edge `e`, feature `d`, with its sums written out. -/
theorem messageArr_apply (c : Dev nD) (e : Fin 1000000) (d : Fin 64) :
    messageArr m c (ix2 e d)
      = (hArr m c (ix2 e d) * Ideal.logistic (∑ k : Fin 64, rfArr m c (ix2 e k) * pwArr m c (ix2 (0 : Fin 1) k))
          + (∑ k : Fin 64, rfArr m c (ix2 e k) * rwArr m c (ix2 d k))
            * (Ideal.logistic (∑ k : Fin 64, rfArr m c (ix2 e k) * rswArr m c (ix2 (0 : Fin 1) k)) * aArr m c (ix2 e (0 : Fin 1))))
        * cjArr m c (ix2 e (0 : Fin 1)) := rfl

/-- WHAT POINT `t` WRITES BACK is block `t` of the message array. -/
theorem flushed_eq (c : Dev nD) (t : Fin cfg0.N) :
    (dats m 0 c).flushed 7 t = ((cfg0.win 7).blk t).view.read (Elt Ideal) (messageArr m c) := by
  have hN : cfg0.N = 250 := N_0
  obtain ⟨-, -, -, -, -, -, -, -, -, -, -, -, -, -, e70, e71⟩ := idx_facts t
  show (cfg0.win 7).cut (grid0.coords t) ((dats m 0 c).after 7 t) = _
  rw [after0_7]
  unfold out0_7
  rw [View.canon_unit_zero hz]
  simp only [View.ld_unit_zero (S := S4000x64) hz, View.ld_unit_zero (S := S1x64) hz, View.ld_unit_zero (S := S64x64) hz,
    View.ld_unit_zero (S := S4000x1) hz]
  funext j
  obtain ⟨p, q, rfl⟩ : ∃ (p : Fin 4000) (q : Fin 64), j = ix2 p q := ⟨j 0, j 1, eq_ix2 j⟩
  have ht : t.val < 250 := hN ▸ t.isLt
  obtain ⟨e, he⟩ : ∃ e : Fin 1000000, e.val = 4000 * t.val + p.val := ⟨⟨4000 * t.val + p.val, by have := p.isLt; omega⟩, rfl⟩
  have hemb : ((cfg0.win 7).blk t).view.emb (ix2 p q) = (ix2 e q : S1000000x64.Idx) := by
    funext a
    apply Fin.ext
    match a with
    | ⟨0, _⟩ => show win0_7.index t (0 : Fin 2) * 4000 + 1 * p.val = e.val; rw [e70, he]; omega
    | ⟨1, _⟩ => show win0_7.index t (1 : Fin 2) * 64 + 1 * q.val = q.val; rw [e71]; omega
  show k0_pay1 (F := Ideal) (rfBlk m c t) (pwBlk m c t) (rswBlk m c t) (rwBlk m c t) (hBlk m c t) (cjBlk m c t) (aBlk m c t) (ix2 p q)
      = messageArr m c (((cfg0.win 7).blk t).view.emb (ix2 p q))
  rw [hemb, messageArr_apply]
  refine (payload_apply (rfBlk m c t) (pwBlk m c t) (rswBlk m c t) (rwBlk m c t) (hBlk m c t) (cjBlk m c t) (aBlk m c t) p q).trans ?_
  have s1 : (∑ k : Fin 64, rfBlk m c t (ix2 p k) * pwBlk m c t (ix2 (0 : Fin 1) k))
      = ∑ k : Fin 64, rfArr m c (ix2 e k) * pwArr m c (ix2 (0 : Fin 1) k) :=
    Finset.sum_congr rfl fun k _ => by rw [rfBlk_apply m c t p k e he, pwBlk_apply m c t k]
  have s2 : (∑ k : Fin 64, rfBlk m c t (ix2 p k) * rswBlk m c t (ix2 (0 : Fin 1) k))
      = ∑ k : Fin 64, rfArr m c (ix2 e k) * rswArr m c (ix2 (0 : Fin 1) k) :=
    Finset.sum_congr rfl fun k _ => by rw [rfBlk_apply m c t p k e he, rswBlk_apply m c t k]
  have s3 : (∑ k : Fin 64, rfBlk m c t (ix2 p k) * rwBlk m c t (ix2 q k))
      = ∑ k : Fin 64, rfArr m c (ix2 e k) * rwArr m c (ix2 q k) :=
    Finset.sum_congr rfl fun k _ => by rw [rfBlk_apply m c t p k e he, rwBlk_apply m c t q k]
  rw [s1, s2, s3, hBlk_apply m c t p q e he, aBlk_apply m c t p e he, cjBlk_apply m c t p e he]

/-- An index of the output array is in point `t`'s block iff each coordinate is in the block's range on its axis. -/
theorem mem_blk (t : Fin cfg0.N) (i : S1000000x64.Idx) :
    i ∈ ((cfg0.win 7).blk t).view.set ↔ ∀ a : Fin 2, win0_7.index t a * S4000x64.size a ≤ (i a).val ∧ (i a).val < win0_7.index t a * S4000x64.size a + S4000x64.size a := by
  show i ∈ ((View.whole main_v15).slice (win0_7.rect t)).set ↔ _
  rw [View.set_slice_whole, Rect.mem_set_unit]
  exact Iff.rfl

/-- Every row of the output array lies in some point's block: row `e` in block `e / 4000`. -/
theorem cover (i : S1000000x64.Idx) : ∃ t : Fin cfg0.N, (cfg0.win 7).flush t = true ∧ i ∈ ((cfg0.win 7).blk t).view.set := by
  have hN : cfg0.N = 250 := N_0
  have hi0 : (i 0).val < 1000000 := (i 0).isLt
  have hi1 : (i 1).val < 64 := (i 1).isLt
  let t : Fin cfg0.N := ⟨(i 0).val / 4000, by rw [hN]; omega⟩
  obtain ⟨-, -, -, -, -, -, -, -, -, -, -, -, -, -, e70, e71⟩ := idx_facts t
  refine ⟨t, flush0_7 t, ?_⟩
  rw [mem_blk]
  intro a
  match a with
  | ⟨0, _⟩ =>
    show win0_7.index t (0 : Fin 2) * 4000 ≤ (i 0).val ∧ (i 0).val < win0_7.index t (0 : Fin 2) * 4000 + 4000
    rw [e70]
    show (i 0).val / 4000 * 4000 ≤ (i 0).val ∧ (i 0).val < (i 0).val / 4000 * 4000 + 4000
    omega
  | ⟨1, _⟩ =>
    show win0_7.index t (1 : Fin 2) * 64 ≤ (i 1).val ∧ (i 1).val < win0_7.index t (1 : Fin 2) * 64 + 64
    rw [e71]
    omega

/-- THE OUTPUT ARRAY after the region is the message array. -/
theorem final (c : Dev nD) : (dats m 0 c).arrAt 7 cfg0.N = messageArr m c :=
  (dats m 0 c).arrAt_eq_of_cover 7 (messageArr m c) (fun t _ => flushed_eq m c t) cover

end Cert.KernelIdeal.Tile

end
-- ==== Proof.KernelRun.lean ====
/-
  The kernel program's result as one term of its arguments.

  Before the region the host gathers the source rows `weight[src]` and the source normalisers
  `cj[src]` (a negative index counted from the end, as jnp does) and relabels the attention vector
  as a column; the region writes the message array; after it the host scatter-adds the message rows
  into the destination nodes, starting from zeros, and scales row `n` by `ci n`. So the result is
  `aggregate (message rf (gather weight src) (gather cj src) (column attn) pw rsw rw) dst ci`.
-/
import proofs.«142595_j77300821393408_1_alg».proof.Proof.KernelMessage

noncomputable section

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeMessage

variable (m : (ℓ : Loc nD τ sig) → Buf (Elt Ideal) ℓ) (ρ : Dev nD → PrngReg)

/-- jnp's reading of an index vector into an axis of 100000 rows: a negative index counts from the end; as a column. -/
def wrapIdx (x : IVec S1000000 32) : IVec S1000000x1 32 :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 100000#32))) x)

/-- The rows of `weight` the edges' sources select. -/
def srcRows (w : Vec Ideal S100000x64 .f32) (src : IVec S1000000 32) : Vec Ideal S1000000x64 .f32 :=
  Host.gather gather_S100000x64_S1000000x1_S1000000x64_1_0_n_n_0_1_164 w (wrapIdx src)

/-- The entries of `cj` the edges' sources select. -/
def srcNorm (cj : Vec Ideal S100000x1 .f32) (src : IVec S1000000 32) : Vec Ideal S1000000x1 .f32 :=
  Host.gather gather_S100000x1_S1000000x1_S1000000x1_1_0_n_n_0_1_11 cj (wrapIdx src)

/-- A vector of one number per edge as a column. -/
def asColumn (a : Vec Ideal S1000000 .f32) : Vec Ideal S1000000x1 .f32 :=
  broadcastInDim S1000000x1 ![0] bcast_S1000000_S1000000x1_0 a

/-- The message rows added into their destination nodes, from zeros, each node's row then scaled by its `ci`. -/
def aggregate (msg : Vec Ideal S1000000x64 .f32) (dst : IVec S1000000 32) (ci : Vec Ideal S100000x1 .f32) :
    Vec Ideal S100000x64 .f32 :=
  mulf (Host.scatterAdd scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 dst) msg)
    (broadcastInDim S100000x64 ![0, 1] bcast_S100000x1_S100000x64_0_1 ci)

/-! ## The arrays the region finds, as terms of the arguments -/

theorem rfArr_eq (c : Dev nD) : rfArr m c = m ((c.tc : Thread nD τ).loc main_arg1) := V_main_arg1 m c
theorem pwArr_eq (c : Dev nD) : pwArr m c = m ((c.tc : Thread nD τ).loc main_arg5) := V_main_arg5 m c
theorem rswArr_eq (c : Dev nD) : rswArr m c = m ((c.tc : Thread nD τ).loc main_arg6) := V_main_arg6 m c
theorem rwArr_eq (c : Dev nD) : rwArr m c = m ((c.tc : Thread nD τ).loc main_arg7) := V_main_arg7 m c

theorem hArr_eq (c : Dev nD) : hArr m c = srcRows (m ((c.tc : Thread nD τ).loc main_arg0)) (m ((c.tc : Thread nD τ).loc main_arg8)) := by
  show StableHlo.after hostOps0 (fun b => m (c, b)) (Proc.devRef .tc main_v6) = _
  after_results
  rfl

theorem cjArr_eq (c : Dev nD) : cjArr m c = srcNorm (m ((c.tc : Thread nD τ).loc main_arg3)) (m ((c.tc : Thread nD τ).loc main_arg8)) := by
  show StableHlo.after hostOps0 (fun b => m (c, b)) (Proc.devRef .tc main_v13) = _
  after_results
  rfl

theorem aArr_eq (c : Dev nD) : aArr m c = asColumn (m ((c.tc : Thread nD τ).loc main_arg2)) := by
  show StableHlo.after hostOps0 (fun b => m (c, b)) (Proc.devRef .tc main_v14) = _
  after_results
  rfl

/-- The kernel program's result on core `c`. -/
def result (c : Dev nD) : Vec Ideal S100000x64 .f32 :=
  aggregate
    (message (m ((c.tc : Thread nD τ).loc main_arg1)) (srcRows (m ((c.tc : Thread nD τ).loc main_arg0)) (m ((c.tc : Thread nD τ).loc main_arg8)))
      (srcNorm (m ((c.tc : Thread nD τ).loc main_arg3)) (m ((c.tc : Thread nD τ).loc main_arg8))) (asColumn (m ((c.tc : Thread nD τ).loc main_arg2)))
      (m ((c.tc : Thread nD τ).loc main_arg5)) (m ((c.tc : Thread nD τ).loc main_arg6)) (m ((c.tc : Thread nD τ).loc main_arg7)))
    (m ((c.tc : Thread nD τ).loc main_arg9)) (m ((c.tc : Thread nD τ).loc main_arg4))

/-- The message array is `message` of the arguments. -/
theorem messageArr_eq (c : Dev nD) :
    messageArr m c = message (m ((c.tc : Thread nD τ).loc main_arg1)) (srcRows (m ((c.tc : Thread nD τ).loc main_arg0)) (m ((c.tc : Thread nD τ).loc main_arg8)))
      (srcNorm (m ((c.tc : Thread nD τ).loc main_arg3)) (m ((c.tc : Thread nD τ).loc main_arg8))) (asColumn (m ((c.tc : Thread nD τ).loc main_arg2)))
      (m ((c.tc : Thread nD τ).loc main_arg5)) (m ((c.tc : Thread nD τ).loc main_arg6)) (m ((c.tc : Thread nD τ).loc main_arg7)) := by
  unfold messageArr
  rw [rfArr_eq, hArr_eq, cjArr_eq, aArr_eq, pwArr_eq, rswArr_eq, rwArr_eq]

/-- What the lines after the region leave in @main's result. -/
theorem tail_eq (c : Dev nD) :
    Pipeline.afterTail₀ cfgs (dats m) 0 (V0 m) [hostOps1] c main_v20 = result m c := by
  unfold Pipeline.afterTail₀
  show StableHlo.after hostOps1 _ (Proc.devRef .tc main_v20) = _
  after_results
  have h9 : Pipeline.withArrays (cfgs 0).spec c (V0 m c) (fun w => (dats m 0 c).arrAt w (cfgs 0).N) (Proc.devRef .tc main_arg9)
      = m ((c.tc : Thread nD τ).loc main_arg9) :=
    (Pipeline.withArrays_of_ne _ c (V0 m c) _ main_arg9 (by exact (by decide : ∀ w, Pipeline.arrRef spec0 w ≠ main_arg9))).trans
      (V_main_arg9 m c)
  have h4 : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans
      (V_main_arg4 m c)
  have h15 : Pipeline.withArrays (cfgs 0).spec c (V0 m c) (fun w => (dats m 0 c).arrAt w (cfgs 0).N) (Proc.devRef .tc main_v15)
      = messageArr m c :=
    (Pipeline.withArrays_arr spec0 launch0.win.arr_inj c _ _ 7).trans (final m c)
  rw [h9, h4, h15, messageArr_eq]
  rfl

/-- THE RUN, READ: every weakly fair execution terminates with @main's result at `result` and the arguments unchanged. -/
theorem run : θ_run defs (onTc (τ := τ) (main (F := Ideal))) ⟨m, fun _ => 0, ρ⟩ fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v20 (Pipeline.mem_restRefs_of main_v20 (by decide) (by decide))).trans (tail_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Tile

end
-- ==== Proof.RefMessage.lean ====
/-
  The reference's per-edge message is the function `Cert.EdgeMessage.message`.

  The reference forms the two gates as `1 / (1 + e^(−s))` of the scores `s = rf · pwᵀ` and
  `s = rf · rswᵀ`, the projection `rf · rwᵀ`, gathers the source rows and the source normalisers,
  and combines them as `(h · pa + proj · (ra · a)) · cj` with the columns broadcast along the 64
  features. Read at edge `e` and feature `d`: a product with a transposed operand pairs row `e` of
  `rf` with a ROW of the weights, the literal one is the number one, the host's quotient is the
  extended reals', so each gate is the logistic function of its score, and the broadcasts read their
  column at row `e`. The two gathers are left as they are: the kernel's program has the same two.
-/
import proofs.«142595_j77300821393408_1_alg».proof.Proof.Gen.ReferenceIdeal.Run
import proofs.«142595_j77300821393408_1_alg».proof.Proof.Gen.ReferenceIdeal.Read
import proofs.«142595_j77300821393408_1_alg».proof.Proof.EdgeMessage

noncomputable section

namespace Cert.ReferenceIdeal.RefMessage

open Cert.ReferenceIdeal Cert.ReferenceIdeal.Gen Cert.ReferenceIdeal.Read Idealize.ShloMosaic Idealize.ShloMosaic.ValueIdx
open Cert.EdgeMessage

/-- The reference's first gate at edge `e`: the logistic function of the score against `prob_w`. -/
theorem gate_pw (x1 : (⟨S1000000x64, .f32⟩ : BufTy).Contents (Elt Ideal)) (x5 : (⟨S1x64, .f32⟩ : BufTy).Contents (Elt Ideal))
    (e : Fin 1000000) : val_main_v7 (F := Ideal) x1 x5 (ix2 e (0 : Fin 1)) = Ideal.logistic (score x1 x5 e) := by
  have il : ∀ k : Fin 64, lidx_main_v1 (ix2 e (0 : Fin 1)) k = ix2 e k := fun k =>
    funext fun a => Fin.ext (by match a with | ⟨0, _⟩ => rfl | ⟨1, _⟩ => rfl)
  have ir : ∀ k : Fin 64, idx_main_v0 (ridx_main_v1 (ix2 e (0 : Fin 1)) k) = ix2 (0 : Fin 1) k := fun k =>
    funext fun a => Fin.ext (by match a with | ⟨0, _⟩ => rfl | ⟨1, _⟩ => rfl)
  rw [val_main_v7_apply, val_main_v6_apply, val_main_cst_0_apply, val_main_v5_apply, val_main_v4_apply, val_main_cst_apply,
    val_main_v3_apply, val_main_v2_apply, val_main_v1_apply]
  simp only [val_main_v0_apply, il, ir, Ideal.hostDivf_def, Ideal.addf_def, Ideal.hostUnary_exp_def, Ideal.hostNegf_def,
    Ideal.negf_def, Ideal.ofBits_def, one_f32]
  rfl

/-- The reference's second gate at edge `e`: the logistic function of the score against `review_score_w`. -/
theorem gate_rsw (x1 : (⟨S1000000x64, .f32⟩ : BufTy).Contents (Elt Ideal)) (x6 : (⟨S1x64, .f32⟩ : BufTy).Contents (Elt Ideal))
    (e : Fin 1000000) : val_main_v15 (F := Ideal) x1 x6 (ix2 e (0 : Fin 1)) = Ideal.logistic (score x1 x6 e) := by
  have il : ∀ k : Fin 64, lidx_main_v9 (ix2 e (0 : Fin 1)) k = ix2 e k := fun k =>
    funext fun a => Fin.ext (by match a with | ⟨0, _⟩ => rfl | ⟨1, _⟩ => rfl)
  have ir : ∀ k : Fin 64, idx_main_v8 (ridx_main_v9 (ix2 e (0 : Fin 1)) k) = ix2 (0 : Fin 1) k := fun k =>
    funext fun a => Fin.ext (by match a with | ⟨0, _⟩ => rfl | ⟨1, _⟩ => rfl)
  rw [val_main_v15_apply, val_main_v14_apply, val_main_cst_2_apply, val_main_v13_apply, val_main_v12_apply, val_main_cst_1_apply,
    val_main_v11_apply, val_main_v10_apply, val_main_v9_apply]
  simp only [val_main_v8_apply, il, ir, Ideal.hostDivf_def, Ideal.addf_def, Ideal.hostUnary_exp_def, Ideal.hostNegf_def,
    Ideal.negf_def, Ideal.ofBits_def, one_f32]
  rfl

/-- The reference's projection at `(e, d)`: row `e` of the features paired with row `d` of `review_w`. -/
theorem proj_rw (x1 : (⟨S1000000x64, .f32⟩ : BufTy).Contents (Elt Ideal)) (x7 : (⟨S64x64, .f32⟩ : BufTy).Contents (Elt Ideal))
    (e : Fin 1000000) (d : Fin 64) : val_main_v17 (F := Ideal) x1 x7 (ix2 e d) = proj x1 x7 e d := by
  have il : ∀ k : Fin 64, lidx_main_v17 (ix2 e d) k = ix2 e k := fun k =>
    funext fun a => Fin.ext (by match a with | ⟨0, _⟩ => rfl | ⟨1, _⟩ => rfl)
  have ir : ∀ k : Fin 64, idx_main_v16 (ridx_main_v17 (ix2 e d) k) = ix2 d k := fun k =>
    funext fun a => Fin.ext (by match a with | ⟨0, _⟩ => rfl | ⟨1, _⟩ => rfl)
  rw [val_main_v17_apply]
  simp only [val_main_v16_apply, il, ir]
  rfl

/-- The reference's message array is `message` of the features, the two gathered arrays, the attention column and the
    three weights. -/
theorem message_eq (x0 : (⟨S100000x64, .f32⟩ : BufTy).Contents (Elt Ideal)) (x1 : (⟨S1000000x64, .f32⟩ : BufTy).Contents (Elt Ideal))
    (x2 : (⟨S1000000, .f32⟩ : BufTy).Contents (Elt Ideal)) (x3 : (⟨S100000x1, .f32⟩ : BufTy).Contents (Elt Ideal))
    (x5 x6 : (⟨S1x64, .f32⟩ : BufTy).Contents (Elt Ideal)) (x7 : (⟨S64x64, .f32⟩ : BufTy).Contents (Elt Ideal))
    (x8 : (⟨S1000000, .i32⟩ : BufTy).Contents (Elt Ideal)) :
    val_main_v40 (F := Ideal) x0 x1 x2 x3 x5 x6 x7 x8
      = message x1 (val_main_v24 (F := Ideal) x0 x8) (val_main_v31 (F := Ideal) x3 x8) (val_main_v32 (F := Ideal) x2) x5 x6 x7 := by
  funext i
  obtain ⟨e, d, rfl⟩ : ∃ (e : Fin 1000000) (d : Fin 64), i = ix2 e d := ⟨i 0, i 1, eq_ix2 i⟩
  have i33 : idx_main_v33 (ix2 e d) = ix2 e (0 : Fin 1) :=
    funext fun a => Fin.ext (by match a with | ⟨0, _⟩ => rfl | ⟨1, _⟩ => rfl)
  have i36 : idx_main_v36 (ix2 e d) = ix2 e (0 : Fin 1) :=
    funext fun a => Fin.ext (by match a with | ⟨0, _⟩ => rfl | ⟨1, _⟩ => rfl)
  have i39 : idx_main_v39 (ix2 e d) = ix2 e (0 : Fin 1) :=
    funext fun a => Fin.ext (by match a with | ⟨0, _⟩ => rfl | ⟨1, _⟩ => rfl)
  rw [val_main_v40_apply, val_main_v38_apply, val_main_v34_apply, val_main_v33_apply, val_main_v37_apply, val_main_v36_apply,
    val_main_v35_apply, val_main_v39_apply, i33, i36, i39, gate_pw, gate_rsw, proj_rw]
  rfl

end Cert.ReferenceIdeal.RefMessage

end
-- ==== Proof.lean ====
/-
  A graph-convolution message pass: one million edges, 64 features, 100000 source and destination nodes.

  Both programs compute, for every edge `e` and feature `d`,

      message e d = (h e d · σ(⟨rf e, pw⟩) + ⟨rf e, rw d⟩ · (σ(⟨rf e, rsw⟩) · a e)) · cj e

  with `h = weight[src]`, `cj = cj[src]` gathered by the edges' source nodes, then add the message
  rows into their destination nodes and scale node `n`'s row by `ci n`.

  The kernel streams the edges through a pipeline in 250 tiles of 4000: each tile's three products
  are taken in a narrower float format into a zero accumulator, its gates by the logistic operation;
  the gathers before and the scatter-add and scaling after the pipeline are host operations. The
  reference takes the three products over all edges at once and spells each gate as
  `1 / (1 + e^(−s))`. Over the extended reals a change of format is the identity, a product into the
  zero accumulator is the plain sum over the 64 features whatever the tiling, and the logistic
  operation IS `1 / (1 + e^(−s))`; the association of every product and sum in the message is the same
  on both sides, and the gathers, the scatter-add and the scaling are the same operations. So the two
  results are one term of the arguments, and no finiteness of the inputs is used.

  The three frames: the kernel's two from its pipeline's run (every tile's loads and its one store lie
  inside their buffers), the reference's from its run as a sequence of host operations. The
  idealization rewrote no operation, so nothing is owed for it.
-/
import proofs.«142595_j77300821393408_1_alg».proof.Defs
import proofs.«142595_j77300821393408_1_alg».proof.Proof.Gen.Kernel
import proofs.«142595_j77300821393408_1_alg».proof.Proof.Gen.Kernel.Frame
import proofs.«142595_j77300821393408_1_alg».proof.Proof.Gen.KernelIdeal
import proofs.«142595_j77300821393408_1_alg».proof.Proof.Gen.KernelIdeal.Frame
import proofs.«142595_j77300821393408_1_alg».proof.Proof.Gen.ReferenceIdeal
import proofs.«142595_j77300821393408_1_alg».proof.Proof.Gen.ReferenceIdeal.Run
import proofs.«142595_j77300821393408_1_alg».proof.Proof.Gen.ReferenceIdeal.Read
import proofs.«142595_j77300821393408_1_alg».proof.Proof.Gen.Pre_finite_inputs
import proofs.«142595_j77300821393408_1_alg».proof.Proof.KernelRun
import proofs.«142595_j77300821393408_1_alg».proof.Proof.RefMessage
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The kernel over the extended reals runs and keeps its arguments. -/
theorem frame_kernelIdeal : Cert.frame_KernelIdeal := fun m ρ _ => Cert.KernelIdeal.Gen.frame m ρ

/-- The reference runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the aggregated messages: the kernel by its
    pipeline's 250 tiles, the reference by its host operations, whose message stage is the same function entry by entry. -/
theorem algebraic : Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨((h c).1.trans (Cert.ReferenceIdeal.Read.val_main_v45_eq ..)).trans ?_, (h c).2⟩)
    (Cert.ReferenceIdeal.Value.run (F := Ideal) m' ρ')
  obtain ⟨a0, a1, a2, a3, a4, a5, a6, a7, a8, a9⟩ := hagree c
  unfold Cert.ReferenceIdeal.Read.val_main_v45 Cert.ReferenceIdeal.Read.val_main_v43
  rw [Cert.ReferenceIdeal.RefMessage.message_eq, a0, a1, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
